-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S16x512x8192 : S_.BroadcastsInDim S16x512x8192 (![] : Fin 0 → Fin S16x512x8192.rank)
  reducesTo_S16x512x8192_S_d0_1_2 : S16x512x8192.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S16x512x8192 .f32) (main_arg1 : FVec F S32x512 .f32) (main_arg2 : FVec F S32 .f32) (main_arg3 : FVec F S512x32 .f32) (main_arg4 : FVec F S512 .f32) : IVec S_ 1 :=
  let main_v0 : FVec F S16x512x8192 .f32 := Host.absf main_arg0
  let main_cst : FVec F S_ .f32 := constant S_ .f32 0x7F800000#32
  let main_v1 : FVec F S16x512x8192 .f32 := broadcastInDim S16x512x8192 ![] bcast_S_S16x512x8192 main_cst
  let main_v2 : IVec S16x512x8192 1 := cmpf .olt main_v0 main_v1
  let main_c : IVec S_ 1 := constantI S_ 1 1#1
  let main_v3 : IVec S_ 1 := (fun x v => Host.reduce IntOp.andi x v reducesTo_S16x512x8192_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S16x512 : Shape := ⟨2, ![16, 512]⟩
abbrev S16x512x512 : Shape := ⟨3, ![16, 512, 512]⟩
abbrev S_ : Shape := ⟨0, ![]⟩
abbrev S16x32 : Shape := ⟨2, ![16, 32]⟩
abbrev S1x32 : Shape := ⟨2, ![1, 32]⟩
abbrev S1x512 : Shape := ⟨2, ![1, 512]⟩
abbrev S16x512x128 : Shape := ⟨3, ![16, 512, 128]⟩
abbrev S16x512x1 : Shape := ⟨3, ![16, 512, 1]⟩

abbrev nBuf : Space → Nat
  | .hbm => 31
  | .vmem => 8
  | .smem => 0
  | _ => 0

abbrev bufTy : (tb : Table) → Fin (tcTables nBuf tb) → BufTy
  | .hbm, ⟨0, _⟩ => ⟨S16x512x8192, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S16x512, .f32⟩
  | .hbm, ⟨6, _⟩ => ⟨S_, .f32⟩
  | .hbm, ⟨7, _⟩ => ⟨S16x512, .f32⟩
  | .hbm, ⟨8, _⟩ => ⟨S16x512, .f32⟩
  | .hbm, ⟨9, _⟩ => ⟨S512x32, .f32⟩
  | .hbm, ⟨10, _⟩ => ⟨S16x32, .f32⟩
  | .hbm, ⟨11, _⟩ => ⟨S1x32, .f32⟩
  | .hbm, ⟨12, _⟩ => ⟨S16x32, .f32⟩
  | .hbm, ⟨13, _⟩ => ⟨S16x32, .f32⟩
  | .hbm, ⟨14, _⟩ => ⟨S_, .f32⟩
  | .hbm, ⟨15, _⟩ => ⟨S16x32, .f32⟩
  | .hbm, ⟨16, _⟩ => ⟨S16x32, .f32⟩
  | .hbm, ⟨17, _⟩ => ⟨S32x512, .f32⟩
  | .hbm, ⟨18, _⟩ => ⟨S16x512, .f32⟩
  | .hbm, ⟨19, _⟩ => ⟨S1x512, .f32⟩
  | .hbm, ⟨20, _⟩ => ⟨S16x512, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S_, .f32⟩
  | .hbm, ⟨25, _⟩ => ⟨S16x512, .f32⟩
  | .hbm, ⟨26, _⟩ => ⟨S16x512, .f32⟩
  | .hbm, ⟨27, _⟩ => ⟨S_, .f32⟩
  | .hbm, ⟨28, _⟩ => ⟨S16x512, .f32⟩
  | .hbm, ⟨29, _⟩ => ⟨S16x512, .f32⟩
  | .hbm, ⟨30, _⟩ => ⟨S16x512x8192, .f32⟩
  | .local _ .vmem, ⟨0, _⟩ => ⟨S16x512x512, .f32⟩
  | .local _ .vmem, ⟨1, _⟩ => ⟨S16x512x512, .f32⟩
  | .local _ .vmem, ⟨2, _⟩ => ⟨S16x512, .f32⟩
  | .local _ .vmem, ⟨3, _⟩ => ⟨S16x512x128, .f32⟩
  | .local _ .vmem, ⟨4, _⟩ => ⟨S16x512x128, .f32⟩
  | .local _ .vmem, ⟨5, _⟩ => ⟨S16x512, .f32⟩
  | .local _ .vmem, ⟨6, _⟩ => ⟨S16x512x128, .f32⟩
  | .local _ .vmem, ⟨7, _⟩ => ⟨S16x512x128, .f32⟩
  | _, _ => ⟨S16x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S16x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x512x512_S16x512x512_0_0_0 : ∀ a, (![0, 0, 0] : Fin 3 → Nat) a + S16x512x512.size a ≤ S16x512x512.size a
  h_S16x512x512 : 0 < S16x512x512.numel
  reduces_S16x512x512_S16x512 : S16x512x512.Reduces [2] S16x512
  bcast_S_S16x512 : S_.BroadcastsInDim S16x512 (![] : Fin 0 → Fin S16x512.rank)
  transposes_S32x512_S512x32_1_0 : S32x512.Transposes [1, 0] S512x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S512x32_S32x512_1_0 : S512x32.Transposes [1, 0] S32x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  inb_S16x512x128_S16x512x128_0_0_0 : ∀ a, (![0, 0, 0] : Fin 3 → Nat) a + S16x512x128.size a ≤ S16x512x128.size a
  h_S16x512x128 : 0 < S16x512x128.numel
  shapeCasts_S16x512_S16x512x1 : S16x512.ShapeCasts S16x512x1
  broadcasts_S16x512x1_S16x512x128 : S16x512x1.Broadcasts S16x512x128
  dot_S16x512_S512x32_S16x32_1_0_0_1_n_n_wf : DotDims.WF S16x512 S512x32 S16x32 [1] [0] [0] [1] [] []
  dot_S16x32_S32x512_S16x512_1_0_0_1_n_n_wf : DotDims.WF S16x32 S32x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x512.size a ≤ S16x512x8192.size a
  hwx0_0 : ∀ i : grid0.Coords, EltTy.bits .f32 = 32 ∨ (Rect.block (s := S16x512x8192) S16x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512x128.size a ≤ S16x512x8192.size a
  hwx1_0 : ∀ i : grid1.Coords, EltTy.bits .f32 = 32 ∨ (Rect.block (s := S16x512x8192) S16x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512x128.size a ≤ S16x512x8192.size a
  hwx1_2 : ∀ i : grid1.Coords, EltTy.bits .f32 = 32 ∨ (Rect.block (s := S16x512x8192) S16x512x128.size (cc1_transform_2 i) (hinb1_2 i)).WholeWords (EltTy.packing .f32)

variable [Facts₀]

def dot_S16x512_S512x32_S16x32_1_0_0_1_n_n : DotDims S16x512 S512x32 S16x32 where
  lhsContracting := [1]
  rhsContracting := [0]
  lhsNonContracting := [0]
  rhsNonContracting := [1]
  lhsBatch := []
  rhsBatch := []
  wf := dot_S16x512_S512x32_S16x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

abbrev win0_0 : Pipeline.Window sig grid0 :=
  Pipeline.Window.ofSpec (Memref.whole main_arg0) S16x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S16x512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x512x8192 : Shape := ⟨3, ![16, 512, 8192]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S16x512 : Shape := ⟨2, ![16, 512]⟩
abbrev S16x32 : Shape := ⟨2, ![16, 32]⟩
abbrev S1x32 : Shape := ⟨2, ![1, 32]⟩
abbrev S1x512 : Shape := ⟨2, ![1, 512]⟩
abbrev S16x512x1 : Shape := ⟨3, ![16, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x512x8192, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S512x32, .f32⟩
  | .hbm, ⟨11, _⟩ => ⟨S16x32, .f32⟩
  | .hbm, ⟨12, _⟩ => ⟨S1x32, .f32⟩
  | .hbm, ⟨13, _⟩ => ⟨S16x32, .f32⟩
  | .hbm, ⟨14, _⟩ => ⟨S16x32, .f32⟩
  | .hbm, ⟨15, _⟩ => ⟨S_, .f32⟩
  | .hbm, ⟨16, _⟩ => ⟨S16x32, .f32⟩
  | .hbm, ⟨17, _⟩ => ⟨S16x32, .f32⟩
  | .hbm, ⟨18, _⟩ => ⟨S32x512, .f32⟩
  | .hbm, ⟨19, _⟩ => ⟨S16x512, .f32⟩
  | .hbm, ⟨20, _⟩ => ⟨S1x512, .f32⟩
  | .hbm, ⟨21, _⟩ => ⟨S16x512, .f32⟩
  | .hbm, ⟨22, _⟩ => ⟨S16x512, .f32⟩
  | .hbm, ⟨23, _⟩ => ⟨S16x512, .f32⟩
  | .hbm, ⟨24, _⟩ => ⟨S16x512, .f32⟩
  | .hbm, ⟨25, _⟩ => ⟨S_, .f32⟩
  | .hbm, ⟨26, _⟩ => ⟨S16x512, .f32⟩
  | .hbm, ⟨27, _⟩ => ⟨S16x512, .f32⟩
  | .hbm, ⟨28, _⟩ => ⟨S_, .f32⟩
  | .hbm, ⟨29, _⟩ => ⟨S16x512, .f32⟩
  | .hbm, ⟨30, _⟩ => ⟨S16x512, .f32⟩
  | .hbm, ⟨31, _⟩ => ⟨S16x512x1, .f32⟩
  | .hbm, ⟨32, _⟩ => ⟨S16x512x8192, .f32⟩
  | .hbm, ⟨33, _⟩ => ⟨S16x512x8192, .f32⟩
  | _, _ => ⟨S16x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S16x512x8192_S16x512_d2 : S16x512x8192.ReducesTo [2] S16x512
  h_S_ : 0 < S_.numel
  bcast_S_S16x512 : S_.BroadcastsInDim S16x512 (![] : Fin 0 → Fin S16x512.rank)
  transposes_S32x512_S512x32_1_0 : S32x512.Transposes [1, 0] S512x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S16x32 : S_.BroadcastsInDim S16x32 (![] : Fin 0 → Fin S16x32.rank)
  transposes_S512x32_S32x512_1_0 : S512x32.Transposes [1, 0] S32x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S16x512_S16x512x1_0_1 : S16x512.BroadcastsInDim S16x512x1 (![0, 1] : Fin 2 → Fin S16x512x1.rank)
  bcast_S16x512x1_S16x512x8192_0_1_2 : S16x512x1.BroadcastsInDim S16x512x8192 (![0, 1, 2] : Fin 3 → Fin S16x512x8192.rank)
  dot_S16x512_S512x32_S16x32_1_0_0_1_n_n_wf : DotDims.WF S16x512 S512x32 S16x32 [1] [0] [0] [1] [] []
  dot_S16x32_S32x512_S16x512_1_0_0_1_n_n_wf : DotDims.WF S16x32 S32x512 S16x512 [1] [0] [0] [1] [] []

variable [Facts₀]

def dot_S16x512_S512x32_S16x32_1_0_0_1_n_n : DotDims S16x512 S512x32 S16x32 where
  lhsContracting := [1]
  rhsContracting := [0]
  lhsNonContracting := [0]
  rhsNonContracting := [1]
  lhsBatch := []
  rhsBatch := []
  wf := dot_S16x512_S512x32_S16x32_1_0_0_1_n_n_wf
def dot_S16x32_S32x512_S16x512_1_0_0_1_n_n : DotDims S16x32 S32x512 S16x512 where
  lhsContracting := [1]
  rhsContracting := [0]
  lhsNonContracting := [0]
  rhsNonContracting := [1]
  lhsBatch := []
  rhsBatch := []
  wf := dot_S16x32_S32x512_S16x512_1_0_0_1_n_n_wf

class Facts : Prop extends Facts₀ where

variable [Facts]
-- ==== Proof.PooledSum.lean ====
/-
  Region 0 of the kernel (the pooling pass), read as a value over the extended reals.

  The grid has 16 points; point `t` sees lanes `512 t … 512 t + 511` of every row `(p, q)` of `x`. The output block
  never moves: the first point stores zeros and then adds its block's lane sums, every later point adds its own lane
  sums to what the point before left, and the block is written back once, after the last point. So after point `n`
  the block holds, at `(p, q)`, the sum of the first `512 (n + 1)` lanes of that row (an induction on the point, the
  sum of a longer range split at the shorter one), and the array the region leaves is the sum of all 8192 lanes.
  Only that addition is commutative, associative and has `0` as unit is used: nothing here asks the entries to be finite.
-/
import proofs.«163035_j90417651516343_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.Tactic
open Idealize.ShloMosaic.ValueIdx
open Idealize.ShloMosaic.Pipeline (Dat)

namespace Cert.KernelIdeal.Pooled

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point leaves in the output block -/

section AnyFloat
variable {F : FTy → Type} [FloatOps F]

/-- A later point: the block held `acc`, the body leaves `acc + (lane sums of the input block)`. -/
theorem later_eq (c : Dev nD) (i : grid0.Coords) (a1 : Memref sig .tc .vmem S16x512x512 .f32) (h1 : a1.IsWhole)
    (a2 : Memref sig .tc .vmem S16x512 .f32) (h2 : a2.IsWhole) (hc : ¬cond0_0 i) (x : Vec F S16x512x512 .f32)
    (acc : Vec F S16x512 .f32) :
    out0_B_1 c i a1 h1 a2 h2 hc x acc = k0_pay2 acc x := by
  unfold out0_B_1
  rw [View.read_writes_eq_canon _ _ _ (cover0_B_1 c i a1 h1 a2 h2 hc x acc)]
  unfold kernelRun0_B
  dsimp only
  sl_unfold_words
  rw [View.canon_unit_zero hz2]
  simp only [View.readAt_eq_ld, h1.read_unread, h2.read_unread, View.ld_unit_zero (S := S16x512) hz2,
    View.ld_unit_zero (S := S16x512x512) hz3]

/-- The first point: the body stores the zero block, reads it back, and leaves `0 + (lane sums of the input block)`. -/
theorem first_eq (c : Dev nD) (i : grid0.Coords) (a1 : Memref sig .tc .vmem S16x512x512 .f32) (h1 : a1.IsWhole)
    (a2 : Memref sig .tc .vmem S16x512 .f32) (h2 : a2.IsWhole) (hc : cond0_0 i) (x : Vec F S16x512x512 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S16x512) hz2, View.readCov_unit_zero (S := S16x512) _ hz2]
  simp only [View.readAt_eq_ld, h1.read_unread, View.ld_unit_zero (S := S16x512x512) hz3]

end AnyFloat

/-! ## The same, at an index, over the extended reals -/

/-- Row `(p, q)` with lane `k` put back on the reduced axis is `(p, q, k)`. -/
theorem lift_lane (h : S16x512x512.Reduces [2] S16x512) (p : Fin 16) (q : Fin 512) (k : Fin (S16x512x512.size 2)) :
    h.lift (ix2 p q) k = ix3 p q (⟨k.val, k.isLt⟩ : Fin 512) := by
  funext a; apply Fin.ext
  fin_cases a <;> rfl

/-- One accumulation step at `(p, q)`: what was there plus the block's 512 lanes of that row. -/
theorem step_at (acc : FVec Ideal S16x512 .f32) (x : FVec Ideal S16x512x512 .f32) (p : Fin 16) (q : Fin 512) :
    k0_pay2 (F := Ideal) acc x (ix2 p q) = acc (ix2 p q) + ∑ k : Fin 512, x (ix3 p q k) := by
  unfold k0_pay2
  dsimp only
  rw [addf_apply, shapeCast_self]
  refine congrArg (acc (ix2 p q) + ·) ?_
  refine (Ideal.multiReduction_add_single x 0x00000000#32 reduces_S16x512x512_S16x512 (.inl rfl) rfl (ix2 p q)).trans ?_
  exact Finset.sum_congr rfl fun k _ => congrArg x (lift_lane _ p q k)

/-- The zero block the first point stores is `0` everywhere. -/
theorem zero_at (i : S16x512.Idx) : k0_pay1 (F := Ideal) i = (0 : EReal) := by
  show Ideal.ofBits .f32 0x00000000#32 = 0
  exact Ideal.ofBits_zero_f32

/-! ## The input block of a point, at an index -/

section Region
variable (V : (c : Dev nD) → (b : Ref sig .tc) → Buf (Elt Ideal) ((c : Thread nD τ).loc b))

/-- The input block point `t` sees, and the array `x` as the region finds it, at their literal types. -/
abbrev xblk (c : Dev nD) (t : Fin cfg0.N) : Vec Ideal S16x512x512 .f32 := iblk0 V c 0 t
abbrev xarr (c : Dev nD) : Vec Ideal S16x512x8192 .f32 := V c main_arg0

/-- The input window's block index at point `t`: the whole of the first two axes, block `t` of the lanes. -/
theorem in_index : ∀ t : Fin cfg0.N, win0_0.index t (0 : Fin 3) = 0 ∧ win0_0.index t (1 : Fin 3) = 0
    ∧ win0_0.index t (2 : Fin 3) = t.val :=
  (by decide +kernel : ∀ t : Fin grid0.N, win0_0.index t (0 : Fin 3) = 0 ∧ win0_0.index t (1 : Fin 3) = 0
    ∧ win0_0.index t (2 : Fin 3) = t.val)

/-- Lane `k` of the block point `t` sees is lane `512 t + k` of the array. -/
theorem blk_at (c : Dev nD) (t : Fin cfg0.N) (p : Fin 16) (q : Fin 512) (k : Fin 512) (h : 512 * t.val + k.val < 8192) :
    xblk V c t (ix3 p q k) = xarr V c (ix3 p q ⟨512 * t.val + k.val, h⟩) := by
  obtain ⟨e0, e1, e2⟩ := in_index t
  unfold xblk xarr iblk0
  rw [View.read_apply]
  show V c main_arg0 (((cfg0.win 0).blk t).view.emb (ix3 p q k)) = V c main_arg0 _
  refine congrArg (V c main_arg0) (funext fun a => Fin.ext ?_)
  match a with
  | ⟨0, _⟩ => show win0_0.index t (0 : Fin 3) * 16 + 1 * p.val = p.val; omega
  | ⟨1, _⟩ => show win0_0.index t (1 : Fin 3) * 512 + 1 * q.val = q.val; omega
  | ⟨2, _⟩ => show win0_0.index t (2 : Fin 3) * 512 + 1 * k.val = 512 * t.val + k.val; omega

/-! ## The running sum -/

/-- Lane `j` of row `(p, q)` of an array, as a sequence in `j` (`0` past the array's 8192 lanes). -/
def lane (X : FVec Ideal S16x512x8192 .f32) (p : Fin 16) (q : Fin 512) (j : ℕ) : EReal :=
  if h : j < 8192 then X (ix3 p q ⟨j, h⟩) else 0

/-- The 512 lanes point `t` adds at `(p, q)` are the lanes `512 t, …, 512 t + 511` of the row. -/
theorem blk_sum (c : Dev nD) (t : Fin cfg0.N) (p : Fin 16) (q : Fin 512) :
    (∑ k : Fin 512, xblk V c t (ix3 p q k))
      = ∑ j ∈ Finset.range 512, lane (xarr V c) p q (512 * t.val + j) := by
  have hN : t.val < 16 := lt_of_lt_of_eq t.isLt (show cfg0.N = 16 from N_0)
  rw [← Fin.sum_univ_eq_sum_range (fun j => lane (xarr V c) p q (512 * t.val + j)) 512]
  refine Finset.sum_congr rfl fun k _ => ?_
  have hk : 512 * t.val + k.val < 8192 := by have := k.isLt; omega
  rw [blk_at V c t p q k hk]
  unfold lane
  rw [dif_pos hk]

/-- AFTER POINT `n` the output block holds, at `(p, q)`, the sum of the first `512 (n + 1)` lanes of the row. -/
theorem acc_eq (c : Dev nD) : ∀ (n : ℕ) (hn : n < cfg0.N) (p : Fin 16) (q : Fin 512),
    (outsAt0 V c n hn : Vec Ideal S16x512 .f32) (ix2 p q) = ∑ j ∈ Finset.range (512 * (n + 1)), lane (xarr V c) p q j
  | 0, hn, p, q => by
    rw [outsAt0_A V c ⟨0, hn⟩ rfl, first_eq]
    refine (step_at (k0_pay1 (F := Ideal)) (xblk V c ⟨0, hn⟩) p q).trans ?_
    rw [zero_at, zero_add, blk_sum V c ⟨0, hn⟩ p q]
    refine Finset.sum_congr rfl fun j _ => ?_
    show lane (xarr V c) p q (512 * 0 + j) = _
    rw [Nat.mul_zero, Nat.zero_add]
  | n + 1, hn, p, q => by
    have hN : n + 1 < 16 := lt_of_lt_of_eq hn (show cfg0.N = 16 from N_0)
    have hB : ¬(⟨n + 1, hn⟩ : Fin cfg0.N).val % 16 = 0 := by dsimp only; omega
    rw [outsAt0_B V c ⟨n + 1, hn⟩ hB, later_eq]
    refine (step_at (outsAt0 V c n (Nat.lt_of_succ_lt hn)) (xblk V c ⟨n + 1, hn⟩) p q).trans ?_
    rw [acc_eq c n (Nat.lt_of_succ_lt hn) p q, blk_sum V c ⟨n + 1, hn⟩ p q,
      show 512 * (n + 1 + 1) = 512 * (n + 1) + 512 from by omega, Finset.sum_range_add]

/-! ## The array the region leaves -/

/-- Lane `k` of the row an index `i` of the pooled array names. -/
abbrev laneIdx (i : S16x512.Idx) (k : Fin 8192) : S16x512x8192.Idx := fun a => match a with
  | ⟨0, _⟩ => ⟨(i 0).val, (i 0).isLt⟩
  | ⟨1, _⟩ => ⟨(i 1).val, (i 1).isLt⟩
  | ⟨2, _⟩ => ⟨k.val, k.isLt⟩

/-- The pooled array: at each `(p, q)` the sum of all 8192 lanes of that row. -/
def pooled (X : FVec Ideal S16x512x8192 .f32) : FVec Ideal S16x512 .f32 :=
  fun i => ∑ k : Fin 8192, X (laneIdx i k)

theorem pooled_at (X : FVec Ideal S16x512x8192 .f32) (p : Fin 16) (q : Fin 512) :
    pooled X (ix2 p q) = ∑ j ∈ Finset.range 8192, lane X p q j := by
  unfold pooled
  rw [← Fin.sum_univ_eq_sum_range (lane X p q) 8192]
  refine Finset.sum_congr rfl fun k _ => ?_
  unfold lane
  rw [dif_pos k.isLt]
  refine congrArg X (funext fun a => Fin.ext ?_)
  match a with
  | ⟨0, _⟩ => rfl
  | ⟨1, _⟩ => rfl
  | ⟨2, _⟩ => rfl

/-- The output window's block index never moves: block `(0, 0)`, the whole array. -/
theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- An index of the pooled array is in point `t`'s block iff each coordinate is in the block's range on its axis. -/
theorem mem_out_blk (t : Fin cfg0.N) (i : S16x512.Idx) :
    i ∈ ((cfg0.win 1).blk t).view.set ↔ ∀ a : Fin 2, win0_1.index t a * S16x512.size a ≤ (i a).val
      ∧ (i a).val < win0_1.index t a * S16x512.size a + S16x512.size a := by
  show i ∈ ((View.whole main_v0).slice (win0_1.rect t)).set ↔ _
  rw [View.set_slice_whole, Rect.mem_set_unit]
  exact Iff.rfl

/-- The one write-back (after the last point) writes the pooled array. -/
theorem flushed_eq (c : Dev nD) (t : Fin cfg0.N) (hf : (cfg0.win 1).flush t = true) :
    (dat0 V c).flushed 1 t = ((cfg0.win 1).blk t).view.read (Elt Ideal) (pooled (xarr V c)) := by
  have hN : t.val < 16 := lt_of_lt_of_eq t.isLt (show cfg0.N = 16 from N_0)
  have h15 : t.val = 15 := by have := (flush0_1 t).mp hf; omega
  obtain ⟨e0, e1⟩ := out_index t
  show (cfg0.win 1).cut (grid0.coords t) ((dat0 V c).after 1 t) = _
  rw [after0_1]
  funext y
  revert y
  intro (y : S16x512.Idx)
  obtain ⟨p, q, rfl⟩ : ∃ (p : Fin 16) (q : Fin 512), y = ix2 p q := ⟨y 0, y 1, eq_ix2 y⟩
  show (outsAt0 V c t.val t.isLt : Vec Ideal S16x512 .f32) (ix2 p q)
    = pooled (xarr V c) (((cfg0.win 1).blk t).view.emb (ix2 p q))
  have hemb : ((cfg0.win 1).blk t).view.emb (ix2 p q) = (ix2 p q : S16x512.Idx) := by
    funext a; apply Fin.ext
    match a with
    | ⟨0, _⟩ => show win0_1.index t (0 : Fin 2) * 16 + 1 * p.val = p.val; omega
    | ⟨1, _⟩ => show win0_1.index t (1 : Fin 2) * 512 + 1 * q.val = q.val; omega
  rw [hemb, acc_eq V c t.val t.isLt p q, pooled_at, h15]

/-- So region 0 leaves the pooled array in its result array. -/
theorem final (c : Dev nD) : (dat0 V c).arrAt 1 cfg0.N = pooled (xarr V c) :=
  (dat0 V c).arrAt_eq_of_cover 1 (pooled (xarr V c)) (flushed_eq V c) fun i => by
    have hN : cfg0.N = 16 := N_0
    refine ⟨⟨15, by rw [hN]; decide⟩, (flush0_1 _).mpr rfl, ?_⟩
    obtain ⟨e0, e1⟩ := out_index ⟨15, by rw [hN]; decide⟩
    rw [mem_out_blk]
    intro a
    have h0 : (i 0).val < 16 := (i 0).isLt
    have h1 : (i 1).val < 512 := (i 1).isLt
    match a with
    | ⟨0, _⟩ => show win0_1.index _ (0 : Fin 2) * 16 ≤ (i 0).val ∧ (i 0).val < win0_1.index _ (0 : Fin 2) * 16 + 16; omega
    | ⟨1, _⟩ => show win0_1.index _ (1 : Fin 2) * 512 ≤ (i 1).val ∧ (i 1).val < win0_1.index _ (1 : Fin 2) * 512 + 512; omega

end Region

end Cert.KernelIdeal.Pooled

end
-- ==== Proof.Rescaled.lean ====
/-
  Region 1 of the kernel (the rescale pass), read as a value over the extended reals.

  The grid has 64 points; point `t` sees lanes `128 t … 128 t + 127` of every row `(p, q)` of `x`, and the whole
  16 × 512 array of gates. Its body multiplies each entry of the block by its row's gate (the gates cast to a
  trailing unit axis and broadcast along the lanes), and the product is written back to the same lanes of the result.
  The 64 blocks tile the result array, so the array ends at `x (p, q, l) · g (p, q)` everywhere: the entry `(p, q, l)`
  lies in the block of point `l / 128`.
-/
import proofs.«163035_j90417651516343_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.Tactic
open Idealize.ShloMosaic.ValueIdx
open Idealize.ShloMosaic.Pipeline (Dat)

namespace Cert.KernelIdeal.Rescaled

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## The result as one function of the two arrays the region reads -/

/-- The row `(p, q)` an index `(p, q, l)` lies in. -/
abbrev rowIdx (i : S16x512x8192.Idx) : S16x512.Idx := fun a => match a with
  | ⟨0, _⟩ => ⟨(i 0).val, (i 0).isLt⟩
  | ⟨1, _⟩ => ⟨(i 1).val, (i 1).isLt⟩

/-- Every entry of `x` times its row's gate. -/
def scaled (X : FVec Ideal S16x512x8192 .f32) (G : FVec Ideal S16x512 .f32) : FVec Ideal S16x512x8192 .f32 :=
  fun i => X i * G (rowIdx i)

theorem scaled_at (X : FVec Ideal S16x512x8192 .f32) (G : FVec Ideal S16x512 .f32) (p : Fin 16) (q : Fin 512) (l : Fin 8192) :
    scaled X G (ix3 p q l) = X (ix3 p q l) * G (ix2 p q) := by
  unfold scaled
  refine congrArg (X (ix3 p q l) * ·) (congrArg G (funext fun a => Fin.ext ?_))
  match a with
  | ⟨0, _⟩ => rfl
  | ⟨1, _⟩ => rfl

/-! ## The body's product at an index -/

/-- The gates cast to 16 × 512 × 1 and broadcast along 128 lanes read, at `(p, q, k)`, the gate of row `(p, q)`;
    so the body's product there is the block's entry times that gate. -/
theorem pay_at (x : FVec Ideal S16x512x128 .f32) (g : FVec Ideal S16x512 .f32) (p : Fin 16) (q : Fin 512) (k : Fin 128) :
    k1_pay1 (F := Ideal) x g (ix3 p q k) = x (ix3 p q k) * g (ix2 p q) := by
  unfold k1_pay1
  rw [mulf_apply, shapeCast_self]
  refine congrArg (x (ix3 p q k) * ·) ?_
  refine (broadcastTo_apply _ broadcasts_S16x512x1_S16x512x128 (ix3 p q k) (ix3 p q (0 : Fin 1)) (fun a => ?_)).trans ?_
  · match a with
    | ⟨0, _⟩ => show p.val = if (16 : Nat) = 1 then 0 else p.val; rw [if_neg (by decide)]
    | ⟨1, _⟩ => show q.val = if (512 : Nat) = 1 then 0 else q.val; rw [if_neg (by decide)]
    | ⟨2, _⟩ => show 0 = if (1 : Nat) = 1 then 0 else k.val; rw [if_pos rfl]
  · refine shapeCast_apply g shapeCasts_S16x512_S16x512x1 (ix3 p q (0 : Fin 1)) (ix2 p q) ?_
    rw [Shape.rowMajor_val_two, Shape.rowMajor_val_three]
    show p.val * 512 + q.val = (p.val * 512 + q.val) * 1 + 0
    omega

/-! ## The blocks of a point, at an index -/

section Region
variable (V : (c : Dev nD) → (b : Ref sig .tc) → Buf (Elt Ideal) ((c : Thread nD τ).loc b))

/-- The blocks point `t` sees and the two arrays as the region finds them, at their literal types. -/
abbrev xblk (c : Dev nD) (t : Fin cfg1.N) : Vec Ideal S16x512x128 .f32 := iblk1 V c 0 t
abbrev gblk (c : Dev nD) (t : Fin cfg1.N) : Vec Ideal S16x512 .f32 := iblk1 V c 1 t
abbrev xarr (c : Dev nD) : Vec Ideal S16x512x8192 .f32 := V c main_arg0
abbrev garr (c : Dev nD) : Vec Ideal S16x512 .f32 := V c main_v19

/-- The windows' block indices at point `t`: `x` and the result move along the lanes with `t`, the gates never move. -/
theorem index_facts : ∀ t : Fin cfg1.N, win1_0.index t (0 : Fin 3) = 0 ∧ win1_0.index t (1 : Fin 3) = 0
    ∧ win1_0.index t (2 : Fin 3) = t.val ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val :=
  (by decide +kernel : ∀ t : Fin grid1.N, win1_0.index t (0 : Fin 3) = 0 ∧ win1_0.index t (1 : Fin 3) = 0
    ∧ win1_0.index t (2 : Fin 3) = t.val ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val)

/-- Lane `k` of the block of `x` point `t` sees is lane `128 t + k` of the array. -/
theorem xblk_at (c : Dev nD) (t : Fin cfg1.N) (p : Fin 16) (q : Fin 512) (k : Fin 128) (h : 128 * t.val + k.val < 8192) :
    xblk V c t (ix3 p q k) = xarr V c (ix3 p q ⟨128 * t.val + k.val, h⟩) := by
  obtain ⟨e0, e1, e2, -, -, -, -, -⟩ := index_facts t
  unfold xblk xarr iblk1
  rw [View.read_apply]
  show V c main_arg0 (((cfg1.win 0).blk t).view.emb (ix3 p q k)) = V c main_arg0 _
  refine congrArg (V c main_arg0) (funext fun a => Fin.ext ?_)
  match a with
  | ⟨0, _⟩ => show win1_0.index t (0 : Fin 3) * 16 + 1 * p.val = p.val; omega
  | ⟨1, _⟩ => show win1_0.index t (1 : Fin 3) * 512 + 1 * q.val = q.val; omega
  | ⟨2, _⟩ => show win1_0.index t (2 : Fin 3) * 128 + 1 * k.val = 128 * t.val + k.val; omega

/-- The block of gates every point sees is the whole array of gates. -/
theorem gblk_at (c : Dev nD) (t : Fin cfg1.N) (p : Fin 16) (q : Fin 512) :
    gblk V c t (ix2 p q) = garr V c (ix2 p q) := by
  obtain ⟨-, -, -, e3, e4, -, -, -⟩ := index_facts t
  unfold gblk garr iblk1
  rw [View.read_apply]
  show V c main_v19 (((cfg1.win 1).blk t).view.emb (ix2 p q)) = V c main_v19 _
  refine congrArg (V c main_v19) (funext fun a => Fin.ext ?_)
  match a with
  | ⟨0, _⟩ => show win1_1.index t (0 : Fin 2) * 16 + 1 * p.val = p.val; omega
  | ⟨1, _⟩ => show win1_1.index t (1 : Fin 2) * 512 + 1 * q.val = q.val; omega

/-! ## What a point writes back, and the array the region leaves -/

/-- Point `t` writes back block `t` of the scaled array. -/
theorem flushed_eq (c : Dev nD) (t : Fin cfg1.N) :
    (dat1 V c).flushed 2 t = ((cfg1.win 2).blk t).view.read (Elt Ideal) (scaled (xarr V c) (garr V c)) := by
  have hN : t.val < 64 := lt_of_lt_of_eq t.isLt (show cfg1.N = 64 from N_1)
  obtain ⟨-, -, -, -, -, e5, e6, e7⟩ := index_facts t
  show (cfg1.win 2).cut (grid1.coords t) ((dat1 V c).after 2 t) = _
  rw [after1_2]
  unfold out1_2
  rw [View.canon_unit_zero hz3]
  simp only [View.ld_unit_zero (S := S16x512x128) hz3, View.ld_unit_zero (S := S16x512) hz2]
  funext y
  revert y
  intro (y : S16x512x128.Idx)
  obtain ⟨p, q, k, rfl⟩ : ∃ (p : Fin 16) (q : Fin 512) (k : Fin 128), y = ix3 p q k := ⟨y 0, y 1, y 2, eq_ix3 y⟩
  have hk : 128 * t.val + k.val < 8192 := by have := k.isLt; omega
  show k1_pay1 (F := Ideal) (xblk V c t) (gblk V c t) (ix3 p q k)
    = scaled (xarr V c) (garr V c) (((cfg1.win 2).blk t).view.emb (ix3 p q k))
  have hemb : ((cfg1.win 2).blk t).view.emb (ix3 p q k) = (ix3 p q ⟨128 * t.val + k.val, hk⟩ : S16x512x8192.Idx) := by
    funext a; apply Fin.ext
    match a with
    | ⟨0, _⟩ => show win1_2.index t (0 : Fin 3) * 16 + 1 * p.val = p.val; omega
    | ⟨1, _⟩ => show win1_2.index t (1 : Fin 3) * 512 + 1 * q.val = q.val; omega
    | ⟨2, _⟩ => show win1_2.index t (2 : Fin 3) * 128 + 1 * k.val = 128 * t.val + k.val; omega
  rw [hemb, scaled_at]
  refine (pay_at (xblk V c t) (gblk V c t) p q k).trans ?_
  rw [xblk_at V c t p q k hk, gblk_at V c t p q]

/-- An index of the result array is in point `t`'s block iff each coordinate is in the block's range on its axis. -/
theorem mem_out_blk (t : Fin cfg1.N) (i : S16x512x8192.Idx) :
    i ∈ ((cfg1.win 2).blk t).view.set ↔ ∀ a : Fin 3, win1_2.index t a * S16x512x128.size a ≤ (i a).val
      ∧ (i a).val < win1_2.index t a * S16x512x128.size a + S16x512x128.size a := by
  show i ∈ ((View.whole main_v20).slice (win1_2.rect t)).set ↔ _
  rw [View.set_slice_whole, Rect.mem_set_unit]
  exact Iff.rfl

/-- So region 1 leaves the scaled array in its result array. -/
theorem final (c : Dev nD) : (dat1 V c).arrAt 2 cfg1.N = scaled (xarr V c) (garr V c) :=
  (dat1 V c).arrAt_eq_of_cover 2 (scaled (xarr V c) (garr V c)) (fun t _ => flushed_eq V c t) fun i => by
    have hN : cfg1.N = 64 := N_1
    have h0 : (i 0).val < 16 := (i 0).isLt
    have h1 : (i 1).val < 512 := (i 1).isLt
    have h2 : (i 2).val < 8192 := (i 2).isLt
    refine ⟨⟨(i 2).val / 128, by rw [hN]; omega⟩, flush1_2 _, ?_⟩
    obtain ⟨-, -, -, -, -, e5, e6, e7⟩ := index_facts ⟨(i 2).val / 128, by rw [hN]; omega⟩
    rw [mem_out_blk]
    intro a
    match a with
    | ⟨0, _⟩ => show win1_2.index _ (0 : Fin 3) * 16 ≤ (i 0).val ∧ (i 0).val < win1_2.index _ (0 : Fin 3) * 16 + 16; omega
    | ⟨1, _⟩ => show win1_2.index _ (1 : Fin 3) * 512 ≤ (i 1).val ∧ (i 1).val < win1_2.index _ (1 : Fin 3) * 512 + 512; omega
    | ⟨2, _⟩ =>
      show win1_2.index _ (2 : Fin 3) * 128 ≤ (i 2).val ∧ (i 2).val < win1_2.index _ (2 : Fin 3) * 128 + 128
      rw [e7]; dsimp only; omega

end Region

end Cert.KernelIdeal.Rescaled

end
-- ==== Proof.Gate.lean ====
/-
  The gate: the host operations between the two regions as ONE function of the pooled sums `s` and the four weight
  arrays — `σ(relu((s / 8192) · w1ᵀ + b1) · w2ᵀ + b2)` with `σ z = 1 / (1 + exp(−z))`. The kernel's program and
  the reference apply the same operations, literal for literal, to their pooled sums, so the certificate never
  opens this chain: both sides are stated with the one function, and only the values going in are compared.
-/
import proofs.«163035_j90417651516343_1_alg».proof.Proof.Gen.KernelIdeal
import proofs.«163035_j90417651516343_1_alg».proof.Proof.Gen.ReferenceIdeal

noncomputable section

open Idealize.ShloMosaic Idealize.SL.Sem

namespace Cert.KernelIdeal.Gate

open Cert.KernelIdeal Cert.KernelIdeal.Gen

variable {F : FTy → Type} [FloatOps F]

/-- The gates as the kernel's host operations compute them from the pooled sums. -/
def gate (s : FVec F S16x512 .f32) (w1 : FVec F S32x512 .f32) (b1 : FVec F S32 .f32) (w2 : FVec F S512x32 .f32)
    (b2 : FVec F S512 .f32) : FVec F S16x512 .f32 :=
  Host.divf (broadcastInDim S16x512 ![] bcast_S_S16x512 (constant S_ .f32 0x3F800000#32))
    (addf (broadcastInDim S16x512 ![] bcast_S_S16x512 (constant S_ .f32 0x3F800000#32))
      (Host.exp (Host.negf (addf
        (Host.dotGeneral dot_S16x32_S32x512_S16x512_1_0_0_1_n_n none
          (maximumf
            (addf
              (Host.dotGeneral dot_S16x512_S512x32_S16x32_1_0_0_1_n_n none
                (Host.divf s (broadcastInDim S16x512 ![] bcast_S_S16x512 (constant S_ .f32 0x46000000#32)))
                (transpose S512x32 [1, 0] w1 transposes_S32x512_S512x32_1_0))
              (broadcastInDim S16x32 ![0, 1] bcast_S1x32_S16x32_0_1 (broadcastInDim S1x32 ![1] bcast_S32_S1x32_1 b1)))
            (broadcastInDim S16x32 ![] bcast_S_S16x32 (constant S_ .f32 0x00000000#32)))
          (transpose S32x512 [1, 0] w2 transposes_S512x32_S32x512_1_0))
        (broadcastInDim S16x512 ![0, 1] bcast_S1x512_S16x512_0_1 (broadcastInDim S1x512 ![1] bcast_S512_S1x512_1 b2))))))

end Cert.KernelIdeal.Gate

namespace Cert.ReferenceIdeal.Gate

open Cert.ReferenceIdeal Cert.ReferenceIdeal.Gen

variable {F : FTy → Type} [FloatOps F]

/-- The reference's spelling of the same chain (its own shape facts and dimension records) is the same function. -/
theorem gate_eq (s : FVec F S16x512 .f32) (w1 : FVec F S32x512 .f32) (b1 : FVec F S32 .f32) (w2 : FVec F S512x32 .f32)
    (b2 : FVec F S512 .f32) :
    Host.divf (broadcastInDim S16x512 ![] bcast_S_S16x512 (constant S_ .f32 0x3F800000#32))
      (addf (broadcastInDim S16x512 ![] bcast_S_S16x512 (constant S_ .f32 0x3F800000#32))
        (Host.exp (Host.negf (addf
          (Host.dotGeneral dot_S16x32_S32x512_S16x512_1_0_0_1_n_n none
            (maximumf
              (addf
                (Host.dotGeneral dot_S16x512_S512x32_S16x32_1_0_0_1_n_n none
                  (Host.divf s (broadcastInDim S16x512 ![] bcast_S_S16x512 (constant S_ .f32 0x46000000#32)))
                  (transpose S512x32 [1, 0] w1 transposes_S32x512_S512x32_1_0))
                (broadcastInDim S16x32 ![0, 1] bcast_S1x32_S16x32_0_1 (broadcastInDim S1x32 ![1] bcast_S32_S1x32_1 b1)))
              (broadcastInDim S16x32 ![] bcast_S_S16x32 (constant S_ .f32 0x00000000#32)))
            (transpose S32x512 [1, 0] w2 transposes_S512x32_S32x512_1_0))
          (broadcastInDim S16x512 ![0, 1] bcast_S1x512_S16x512_0_1 (broadcastInDim S1x512 ![1] bcast_S512_S1x512_1 b2))))))
      = Cert.KernelIdeal.Gate.gate s w1 b1 w2 b2 := rfl

end Cert.ReferenceIdeal.Gate

end
-- ==== Proof.KernelValue.lean ====
/-
  The kernel's whole run, read as a value over the extended reals: the result array ends at

      x (p, q, l) · gate (pooled x) w1 b1 w2 b2 (p, q)

  The first region leaves the pooled array (every row's sum over its 8192 lanes); the host operations between the
  regions turn it into the gates and touch no argument; the second region finds `x` as launched and those gates, and
  leaves every entry of `x` times its row's gate.
-/
import proofs.«163035_j90417651516343_1_alg».proof.Proof.KernelLaunch
import proofs.«163035_j90417651516343_1_alg».proof.Proof.PooledSum
import proofs.«163035_j90417651516343_1_alg».proof.Proof.Rescaled
import proofs.«163035_j90417651516343_1_alg».proof.Proof.Gate
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The kernel's result as one function of the five argument arrays. -/
def result (x : FVec Ideal S16x512x8192 .f32) (w1 : FVec Ideal S32x512 .f32) (b1 : FVec Ideal S32 .f32)
    (w2 : FVec Ideal S512x32 .f32) (b2 : FVec Ideal S512 .f32) : FVec Ideal S16x512x8192 .f32 :=
  Rescaled.scaled x (Gate.gate (Pooled.pooled x) w1 b1 w2 b2)

/-- The first region leaves the pooled array of `x` as launched. -/
theorem pooled_eq (c : Dev nD) :
    W1 m ρ c (Proc.devRef .tc main_v0) = Pooled.pooled (m ((c : Thread nD τ).loc main_arg0)) :=
  (W1_arr m ρ c 1).trans (Pooled.final (V0 m ρ) c)

/-- The second region finds `x` as launched: neither the first region nor a host operation writes it. -/
theorem entry_x (c : Dev nD) : W4 m ρ c (Proc.devRef .tc main_arg0) = m ((c : Thread nD τ).loc main_arg0) :=
  (((W5_arr m ρ c 0).trans (((dat1 (V4 m ρ) c).arrAt_in 0 rfl _).trans (A_eq1 (V4 m ρ) c 0))).symm).trans
    (W5_main_arg0 m ρ c)

set_option maxHeartbeats 1000000 in
/-- The second region finds, as its gates, the gate function of what the first region left and the four weight
    arrays as launched: the host operations between the regions, read back one by one. -/
theorem entry_g (c : Dev nD) : W4 m ρ c (Proc.devRef .tc main_v19)
    = Gate.gate (F := Ideal) (W1 m ρ c (Proc.devRef .tc main_v0)) (m ((c : Thread nD τ).loc main_arg1))
        (m ((c : Thread nD τ).loc main_arg2)) (m ((c : Thread nD τ).loc main_arg3)) (m ((c : Thread nD τ).loc main_arg4)) := by
  have e1 : W1 m ρ c (Proc.devRef .tc main_arg1) = m ((c : Thread nD τ).loc main_arg1) := W1_of_ne m ρ c main_arg1 (by decide)
  have e2 : W1 m ρ c (Proc.devRef .tc main_arg2) = m ((c : Thread nD τ).loc main_arg2) := W1_of_ne m ρ c main_arg2 (by decide)
  have e3 : W1 m ρ c (Proc.devRef .tc main_arg3) = m ((c : Thread nD τ).loc main_arg3) := W1_of_ne m ρ c main_arg3 (by decide)
  have e4 : W1 m ρ c (Proc.devRef .tc main_arg4) = m ((c : Thread nD τ).loc main_arg4) := W1_of_ne m ρ c main_arg4 (by decide)
  rw [← e1, ← e2, ← e3, ← e4]
  show StableHlo.after hostOps1_2 (StableHlo.after hostOps1_1 (StableHlo.after hostOps1 (W1 m ρ c))) (Proc.devRef .tc main_v19) = _
  generalize W1 m ρ c = Y
  after_results
  rfl

/-- What the result array holds after the run. -/
theorem result_eq (c : Dev nD) : W5 m ρ c (Proc.devRef .tc main_v20)
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine ((W5_arr m ρ c 2).trans (Rescaled.final (V4 m ρ) c)).trans ?_
  show Rescaled.scaled (W4 m ρ c (Proc.devRef .tc main_arg0)) (W4 m ρ c (Proc.devRef .tc main_v19)) = _
  rw [entry_x, entry_g, pooled_eq]
  rfl

/-- The run: every weakly fair execution terminates with the result array at `result` of the arguments as launched
    and the arguments unchanged. -/
theorem run : θ_run defs (onTc (τ := τ) (main (F := Ideal))) ⟨m, fun _ => 0, ρ⟩ (fun r => ∀ c : Dev nD,
      r.2.mem ((c.tc : Thread nD τ).loc main_v20)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Launch.run_main m ρ)

end Cert.KernelIdeal.Whole

end
-- ==== Proof.RefValue.lean ====
/-
  The reference, read as the same function of the arguments as the kernel.

  Its run ends at `x · broadcast (broadcast (G))` where `G` is the gate chain applied to the host's sum of `x` over
  the lanes. Three facts join it to the kernel's result: the host's sum from `0` over the last axis is, row by row,
  the sum of the row's 8192 lanes (`0` is the unit of addition); the reference's gate chain is the kernel's gate
  function (the same operations); and the two broadcasts of the gates — to a trailing unit axis, then along the
  lanes — read, at `(p, q, l)`, the gate of row `(p, q)`.
-/
import proofs.«163035_j90417651516343_1_alg».proof.Proof.Gen.ReferenceIdeal.Read
import proofs.«163035_j90417651516343_1_alg».proof.Proof.PooledSum
import proofs.«163035_j90417651516343_1_alg».proof.Proof.Rescaled
import proofs.«163035_j90417651516343_1_alg».proof.Proof.Gate
import Idealize.ShloMosaic.Lib.Pipeline.Value
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read

/-- The host's sum of `x` over the lanes, from `0`, is the pooled array. -/
theorem sum_eq (x : FVec Ideal S16x512x8192 .f32) :
    Host.reduceAdd (F := Ideal) x (constant (F := Ideal) S_ .f32 0x00000000#32) reducesTo_S16x512x8192_S16x512_d2 h_S_
      = Cert.KernelIdeal.Pooled.pooled x := by
  funext i
  refine (val_main_v0_apply x i).trans ?_
  rw [val_main_cst_apply]
  show Ideal.ofBits .f32 0x00000000#32 + _ = _
  rw [Ideal.ofBits_zero_f32, zero_add]
  rfl

/-- `x` times the gates broadcast to a trailing unit axis and then along the lanes is the scaled array. -/
theorem scale_eq (x : FVec Ideal S16x512x8192 .f32) (G : FVec Ideal S16x512 .f32) :
    mulf x (broadcastInDim S16x512x8192 ![0, 1, 2] bcast_S16x512x1_S16x512x8192_0_1_2
      (broadcastInDim S16x512x1 ![0, 1] bcast_S16x512_S16x512x1_0_1 G))
      = Cert.KernelIdeal.Rescaled.scaled x G := by
  funext i
  show x i * _ = x i * _
  refine congrArg (x i * ·) ?_
  refine (broadcastInDim_apply _ bcast_S16x512x1_S16x512x8192_0_1_2 _ i (idx_main_v21 i) (fun a => match a with
    | ⟨0, _⟩ => by show (i 0).val = if (16 : Nat) = 1 then 0 else (i 0).val; rw [if_neg (by decide)]
    | ⟨1, _⟩ => by show (i 1).val = if (512 : Nat) = 1 then 0 else (i 1).val; rw [if_neg (by decide)]
    | ⟨2, _⟩ => by show 0 = if (1 : Nat) = 1 then 0 else (i 2).val; rw [if_pos rfl])).trans ?_
  refine (broadcastInDim_apply _ bcast_S16x512_S16x512x1_0_1 G (idx_main_v21 i) (idx_main_v20 (idx_main_v21 i)) (fun a => match a with
    | ⟨0, _⟩ => by show (i 0).val = if (16 : Nat) = 1 then 0 else (i 0).val; rw [if_neg (by decide)]
    | ⟨1, _⟩ => by show (i 1).val = if (512 : Nat) = 1 then 0 else (i 1).val; rw [if_neg (by decide)])).trans ?_
  exact congrArg G (funext fun a => Fin.ext (by match a with | ⟨0, _⟩ => rfl | ⟨1, _⟩ => rfl))

/-- The term the reference's run ends at is the kernel's result function of the same arrays. -/
theorem result_eq (x : FVec Ideal S16x512x8192 .f32) (w1 : FVec Ideal S32x512 .f32) (b1 : FVec Ideal S32 .f32)
    (w2 : FVec Ideal S512x32 .f32) (b2 : FVec Ideal S512 .f32) :
    mulf x (broadcastInDim S16x512x8192 ![0, 1, 2] bcast_S16x512x1_S16x512x8192_0_1_2 (broadcastInDim S16x512x1 ![0, 1] bcast_S16x512_S16x512x1_0_1 (Host.divf (broadcastInDim S16x512 ![] bcast_S_S16x512 (constant S_ .f32 0x3F800000#32)) (addf (broadcastInDim S16x512 ![] bcast_S_S16x512 (constant S_ .f32 0x3F800000#32)) (Host.exp (Host.negf (addf (Host.dotGeneral dot_S16x32_S32x512_S16x512_1_0_0_1_n_n none (maximumf (addf (Host.dotGeneral dot_S16x512_S512x32_S16x32_1_0_0_1_n_n none (Host.divf (Host.reduceAdd (F := Ideal) x (constant S_ .f32 0x00000000#32) reducesTo_S16x512x8192_S16x512_d2 h_S_) (broadcastInDim S16x512 ![] bcast_S_S16x512 (constant S_ .f32 0x46000000#32))) (transpose S512x32 [1, 0] w1 transposes_S32x512_S512x32_1_0)) (broadcastInDim S16x32 ![0, 1] bcast_S1x32_S16x32_0_1 (broadcastInDim S1x32 ![1] bcast_S32_S1x32_1 b1))) (broadcastInDim S16x32 ![] bcast_S_S16x32 (constant S_ .f32 0x00000000#32))) (transpose S32x512 [1, 0] w2 transposes_S512x32_S32x512_1_0)) (broadcastInDim S16x512 ![0, 1] bcast_S1x512_S16x512_0_1 (broadcastInDim S1x512 ![1] bcast_S512_S1x512_1 b2)))))))))
      = Cert.KernelIdeal.Rescaled.scaled x (Cert.KernelIdeal.Gate.gate (Cert.KernelIdeal.Pooled.pooled x) w1 b1 w2 b2) := by
  rw [Cert.ReferenceIdeal.Gate.gate_eq, sum_eq, scale_eq]

end Cert.ReferenceIdeal.RefValue

end
-- ==== Proof.lean ====
/-
  The kernel is a squeeze-and-excitation block over `x : f32[16, 512, 8192]`:

      out (p, q, l) = x (p, q, l) · g (p, q),   g = σ(relu((s / 8192) · w1ᵀ + b1) · w2ᵀ + b2),   s (p, q) = Σ_l x (p, q, l),

  with `σ z = 1 / (1 + exp(−z))`. The kernel computes `s` in a first pipelined pass that accumulates the lane sums of
  16 blocks of 512 lanes into one resident output block, applies the small dense layers on the host, and rescales
  `x` in a second pass over 64 blocks of 128 lanes. The reference sums each row in one host reduction, applies the
  same dense layers, and multiplies `x` by the gates broadcast along the lanes.

  Over the extended reals the two agree entry by entry:
  * the kernel's blockwise accumulation `0 + Σ_{lanes of block 0} + … + Σ_{lanes of block 15}` and the reference's
    `0 + Σ_{all 8192 lanes}` are one sum (addition is associative and commutative with unit `0`; no entry need be
    finite for this, so the precondition is never opened);
  * the dense layers are the same operations on both sides and are carried as one function of the pooled sums;
  * the second pass writes `x · g` block by block, and its 64 blocks tile the result.
  The ideal pass rewrote nothing, so the idealization claim is trivial; the three frames are the generated frame runs
  (the reference's is its generated run with the result dropped).
-/
import proofs.«163035_j90417651516343_1_alg».proof.Defs
import proofs.«163035_j90417651516343_1_alg».proof.Proof.Gen.Kernel
import proofs.«163035_j90417651516343_1_alg».proof.Proof.Gen.Kernel.Skeleton
import proofs.«163035_j90417651516343_1_alg».proof.Proof.Gen.Kernel.Launch
import proofs.«163035_j90417651516343_1_alg».proof.Proof.Gen.Kernel.Points
import proofs.«163035_j90417651516343_1_alg».proof.Proof.Gen.Kernel.Frame
import proofs.«163035_j90417651516343_1_alg».proof.Proof.Gen.KernelIdeal
import proofs.«163035_j90417651516343_1_alg».proof.Proof.Gen.KernelIdeal.Skeleton
import proofs.«163035_j90417651516343_1_alg».proof.Proof.Gen.KernelIdeal.Launch
import proofs.«163035_j90417651516343_1_alg».proof.Proof.Gen.KernelIdeal.Points
import proofs.«163035_j90417651516343_1_alg».proof.Proof.Gen.KernelIdeal.Frame
import proofs.«163035_j90417651516343_1_alg».proof.Proof.Gen.ReferenceIdeal
import proofs.«163035_j90417651516343_1_alg».proof.Proof.Gen.Pre_finite_inputs
import proofs.«163035_j90417651516343_1_alg».proof.Proof.Gen.ReferenceIdeal.Run
import proofs.«163035_j90417651516343_1_alg».proof.Proof.Gen.ReferenceIdeal.Read
import proofs.«163035_j90417651516343_1_alg».proof.Proof.KernelValue
import proofs.«163035_j90417651516343_1_alg».proof.Proof.RefValue
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- The idealized kernel runs and leaves its arguments as launched: the generated frame. -/
theorem frame_kernelIdeal : Cert.frame_KernelIdeal := fun m ρ _ => Cert.KernelIdeal.Gen.frame m ρ

/-- The reference runs and leaves its arguments as launched: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both programs end with the result array at
    `x (p, q, l) · gate (pooled x) w1 b1 w2 b2 (p, q)`: the kernel by its two regions read as values, the reference
    by its run's term rewritten to the same function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
